-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S16384x512 : Shape := ⟨2, ![16384, 512]⟩
abbrev S16384x128 : Shape := ⟨2, ![16384, 128]⟩
abbrev S256x2048 : Shape := ⟨2, ![256, 2048]⟩
abbrev S512x2048 : Shape := ⟨2, ![512, 2048]⟩
abbrev S2048 : Shape := ⟨1, ![2048]⟩
abbrev S128x2048 : Shape := ⟨2, ![128, 2048]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S16384x512 : S_.BroadcastsInDim S16384x512 (![] : Fin 0 → Fin S16384x512.rank)
  reducesTo_S16384x512_S_d0_1 : S16384x512.ReducesTo [0, 1] S_
  bcast_S_S16384x128 : S_.BroadcastsInDim S16384x128 (![] : Fin 0 → Fin S16384x128.rank)
  reducesTo_S16384x128_S_d0_1 : S16384x128.ReducesTo [0, 1] S_
  bcast_S_S256x2048 : S_.BroadcastsInDim S256x2048 (![] : Fin 0 → Fin S256x2048.rank)
  reducesTo_S256x2048_S_d0_1 : S256x2048.ReducesTo [0, 1] S_
  bcast_S_S512x2048 : S_.BroadcastsInDim S512x2048 (![] : Fin 0 → Fin S512x2048.rank)
  reducesTo_S512x2048_S_d0_1 : S512x2048.ReducesTo [0, 1] S_
  bcast_S_S2048 : S_.BroadcastsInDim S2048 (![] : Fin 0 → Fin S2048.rank)
  reducesTo_S2048_S_d0 : S2048.ReducesTo [0] S_
  bcast_S_S128x2048 : S_.BroadcastsInDim S128x2048 (![] : Fin 0 → Fin S128x2048.rank)
  reducesTo_S128x2048_S_d0_1 : S128x2048.ReducesTo [0, 1] S_

variable [Facts]

def fn_part2 {F : FTy → Type} [FloatOps F] (main_arg7 : FVec F S2048 .f32) (main_arg8 : FVec F S128x2048 .f32) (main_arg9 : FVec F S128x2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S128x2048 .f32 := Host.absf main_arg8
  let main_cst_14 : FVec F S_ .f32 := constant S_ .f32 0x7F800000#32
  let main_v40 : FVec F S128x2048 .f32 := broadcastInDim S128x2048 ![] bcast_S_S128x2048 main_cst_14
  let main_v41 : IVec S128x2048 1 := cmpf .olt main_v39 main_v40
  let main_c_15 : IVec S_ 1 := constantI S_ 1 1#1
  let main_v42 : IVec S_ 1 := (fun x v => Host.reduce IntOp.andi x v reducesTo_S128x2048_S_d0_1 h_S_) main_v41 main_c_15
  let main_v43 : IVec S_ 1 := andi main_v38 main_v42
  let main_v44 : FVec F S128x2048 .f32 := Host.absf main_arg9
  let main_cst_16 : FVec F S_ .f32 := constant S_ .f32 0x7F800000#32
  let main_v45 : FVec F S128x2048 .f32 := broadcastInDim S128x2048 ![] bcast_S_S128x2048 main_cst_16
  let main_v46 : IVec S128x2048 1 := cmpf .olt main_v44 main_v45
  let main_c_17 : IVec S_ 1 := constantI S_ 1 1#1
  let main_v47 : IVec S_ 1 := (fun x v => Host.reduce IntOp.andi x v reducesTo_S128x2048_S_d0_1 h_S_) main_v46 main_c_17
  let main_v48 : IVec S_ 1 := andi main_v43 main_v47
  main_v48

def fn_part1 {F : FTy → Type} [FloatOps F] (main_arg4 : FVec F S16384x128 .f32) (main_arg5 : FVec F S256x2048 .f32) (main_arg6 : FVec F S512x2048 .f32) (main_arg7 : FVec F S2048 .f32) (main_arg8 : FVec F S128x2048 .f32) (main_arg9 : FVec F S128x2048 .f32) (main_v13 : IVec S_ 1) (main_v16 : IVec S16384x128 1) : IVec S_ 1 :=
  let main_c_5 : IVec S_ 1 := constantI S_ 1 1#1
  let main_v17 : IVec S_ 1 := (fun x v => Host.reduce IntOp.andi x v reducesTo_S16384x128_S_d0_1 h_S_) main_v16 main_c_5
  let main_v18 : IVec S_ 1 := andi main_v13 main_v17
  let main_v19 : FVec F S16384x128 .f32 := Host.absf main_arg4
  let main_cst_6 : FVec F S_ .f32 := constant S_ .f32 0x7F800000#32
  let main_v20 : FVec F S16384x128 .f32 := broadcastInDim S16384x128 ![] bcast_S_S16384x128 main_cst_6
  let main_v21 : IVec S16384x128 1 := cmpf .olt main_v19 main_v20
  let main_c_7 : IVec S_ 1 := constantI S_ 1 1#1
  let main_v22 : IVec S_ 1 := (fun x v => Host.reduce IntOp.andi x v reducesTo_S16384x128_S_d0_1 h_S_) main_v21 main_c_7
  let main_v23 : IVec S_ 1 := andi main_v18 main_v22
  let main_v24 : FVec F S256x2048 .f32 := Host.absf main_arg5
  let main_cst_8 : FVec F S_ .f32 := constant S_ .f32 0x7F800000#32
  let main_v25 : FVec F S256x2048 .f32 := broadcastInDim S256x2048 ![] bcast_S_S256x2048 main_cst_8
  let main_v26 : IVec S256x2048 1 := cmpf .olt main_v24 main_v25
  let main_c_9 : IVec S_ 1 := constantI S_ 1 1#1
  let main_v27 : IVec S_ 1 := (fun x v => Host.reduce IntOp.andi x v reducesTo_S256x2048_S_d0_1 h_S_) main_v26 main_c_9
  let main_v28 : IVec S_ 1 := andi main_v23 main_v27
  let main_v29 : FVec F S512x2048 .f32 := Host.absf main_arg6
  let main_cst_10 : FVec F S_ .f32 := constant S_ .f32 0x7F800000#32
  let main_v30 : FVec F S512x2048 .f32 := broadcastInDim S512x2048 ![] bcast_S_S512x2048 main_cst_10
  let main_v31 : IVec S512x2048 1 := cmpf .olt main_v29 main_v30
  let main_c_11 : IVec S_ 1 := constantI S_ 1 1#1
  let main_v32 : IVec S_ 1 := (fun x v => Host.reduce IntOp.andi x v reducesTo_S512x2048_S_d0_1 h_S_) main_v31 main_c_11
  let main_v33 : IVec S_ 1 := andi main_v28 main_v32
  fn_part2 (F := F) main_arg7 main_arg8 main_arg9 main_v33

def fn {F : FTy → Type} [FloatOps F] (main_arg0 : FVec F S16384x256 .f32) (main_arg1 : FVec F S16384x512 .f32) (main_arg2 : FVec F S16384x512 .f32) (main_arg3 : FVec F S16384x128 .f32) (main_arg4 : FVec F S16384x128 .f32) (main_arg5 : FVec F S256x2048 .f32) (main_arg6 : FVec F S512x2048 .f32) (main_arg7 : FVec F S2048 .f32) (main_arg8 : FVec F S128x2048 .f32) (main_arg9 : FVec F S128x2048 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S16384x128 .f32 := Host.absf main_arg3
  let main_cst_4 : FVec F S_ .f32 := constant S_ .f32 0x7F800000#32
  let main_v15 : FVec F S16384x128 .f32 := broadcastInDim S16384x128 ![] bcast_S_S16384x128 main_cst_4
  let main_v16 : IVec S16384x128 1 := cmpf .olt main_v14 main_v15
  fn_part1 (F := F) main_arg4 main_arg5 main_arg6 main_arg7 main_arg8 main_arg9 main_v13 main_v16
-- ==== Kernel.lean ====
abbrev S16384x256 : Shape := ⟨2, ![16384, 256]⟩
abbrev S16384x512 : Shape := ⟨2, ![16384, 512]⟩
abbrev S16384x128 : Shape := ⟨2, ![16384, 128]⟩
abbrev S256x2048 : Shape := ⟨2, ![256, 2048]⟩
abbrev S512x2048 : Shape := ⟨2, ![512, 2048]⟩
abbrev S2048 : Shape := ⟨1, ![2048]⟩
abbrev S128x2048 : Shape := ⟨2, ![128, 2048]⟩
abbrev S1x2048 : Shape := ⟨2, ![1, 2048]⟩
abbrev S512x256 : Shape := ⟨2, ![512, 256]⟩
abbrev S512x512 : Shape := ⟨2, ![512, 512]⟩
abbrev S512x128 : Shape := ⟨2, ![512, 128]⟩

abbrev nBuf : Space → Nat
  | .hbm => 17
  | .vmem => 19
  | .smem => 0
  | _ => 0

abbrev bufTy : (tb : Table) → Fin (tcTables nBuf tb) → BufTy
  | .hbm, ⟨0, _⟩ => ⟨S16384x256, .f32⟩
  | .hbm, ⟨1, _⟩ => ⟨S16384x512, .f32⟩
  | .hbm, ⟨2, _⟩ => ⟨S16384x512, .f32⟩
  | .hbm, ⟨3, _⟩ => ⟨S16384x128, .f32⟩
  | .hbm, ⟨4, _⟩ => ⟨S16384x128, .f32⟩
  | .hbm, ⟨5, _⟩ => ⟨S256x2048, .f32⟩
  | .hbm, ⟨6, _⟩ => ⟨S512x2048, .f32⟩
  | .hbm, ⟨7, _⟩ => ⟨S2048, .f32⟩
  | .hbm, ⟨8, _⟩ => ⟨S128x2048, .f32⟩
  | .hbm, ⟨9, _⟩ => ⟨S128x2048, .f32⟩
  | .hbm, ⟨10, _⟩ => ⟨S256x2048, .bf16⟩
  | .hbm, ⟨11, _⟩ => ⟨S512x2048, .bf16⟩
  | .hbm, ⟨12, _⟩ => ⟨S128x2048, .bf16⟩
  | .hbm, ⟨13, _⟩ => ⟨S128x2048, .bf16⟩
  | .hbm, ⟨14, _⟩ => ⟨S1x2048, .f32⟩
  | .hbm, ⟨15, _⟩ => ⟨S16384x512, .f32⟩
  | .hbm, ⟨16, _⟩ => ⟨S16384x512, .f32⟩
  | .local _ .vmem, ⟨0, _⟩ => ⟨S512x256, .f32⟩
  | .local _ .vmem, ⟨1, _⟩ => ⟨S512x256, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S256x2048, .bf16⟩
  | .local _ .vmem, ⟨11, _⟩ => ⟨S512x2048, .bf16⟩
  | .local _ .vmem, ⟨12, _⟩ => ⟨S1x2048, .f32⟩
  | .local _ .vmem, ⟨13, _⟩ => ⟨S128x2048, .bf16⟩
  | .local _ .vmem, ⟨14, _⟩ => ⟨S128x2048, .bf16⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bitsLt_bf16_f32 : FTy.bits .bf16 < FTy.bits .f32
  shapeCasts_S2048_S1x2048 : S2048.ShapeCasts S1x2048
  inb_S512x256_S512x256_0_0 : ∀ a, (![0, 0] : Fin 2 → Nat) a + S512x256.size a ≤ S512x256.size a
  h_S512x256 : 0 < S512x256.numel
  inb_S512x512_S512x512_0_0 : ∀ a, (![0, 0] : Fin 2 → Nat) a + S512x512.size a ≤ S512x512.size a
  h_S512x512 : 0 < S512x512.numel
  inb_S512x128_S512x128_0_0 : ∀ a, (![0, 0] : Fin 2 → Nat) a + S512x128.size a ≤ S512x128.size a
  h_S512x128 : 0 < S512x128.numel
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  slices_S512x2048_o0_0_S512x512 : S512x2048.Slices ![0, 0] S512x512
  slices_S512x2048_o0_512_S512x512 : S512x2048.Slices ![0, 512] S512x512
  slices_S512x2048_o0_1024_S512x512 : S512x2048.Slices ![0, 1024] S512x512
  slices_S512x2048_o0_1536_S512x512 : S512x2048.Slices ![0, 1536] S512x512
  dot_S512x256_S256x2048_S512x2048_1_0_0_1_n_n_wf : DotDims.WF S512x256 S256x2048 S512x2048 [1] [0] [0] [1] [] []
  dot_S512x512_S512x2048_S512x2048_1_0_0_1_n_n_wf : DotDims.WF S512x512 S512x2048 S512x2048 [1] [0] [0] [1] [] []
  dot_S512x128_S128x2048_S512x2048_1_0_0_1_n_n_wf : DotDims.WF S512x128 S128x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S16384x256.size a
  hwx0_0 : ∀ i : grid0.Coords, EltTy.bits .f32 = 32 ∨ (Rect.block (s := S16384x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S16384x512.size a
  hwx0_1 : ∀ i : grid0.Coords, EltTy.bits .f32 = 32 ∨ (Rect.block (s := S16384x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S16384x512.size a
  hwx0_2 : ∀ i : grid0.Coords, EltTy.bits .f32 = 32 ∨ (Rect.block (s := S16384x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S16384x128.size a
  hwx0_3 : ∀ i : grid0.Coords, EltTy.bits .f32 = 32 ∨ (Rect.block (s := S16384x128) S512x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S16384x128.size a
  hwx0_4 : ∀ i : grid0.Coords, EltTy.bits .f32 = 32 ∨ (Rect.block (s := S16384x128) S512x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S256x2048.size a
  hwx0_5 : ∀ i : grid0.Coords, EltTy.bits .bf16 = 32 ∨ (Rect.block (s := S256x2048) S256x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x2048.size a ≤ S512x2048.size a
  hwx0_6 : ∀ i : grid0.Coords, EltTy.bits .bf16 = 32 ∨ (Rect.block (s := S512x2048) S512x2048.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x2048.size a ≤ S128x2048.size a
  hwx0_8 : ∀ i : grid0.Coords, EltTy.bits .bf16 = 32 ∨ (Rect.block (s := S128x2048) S128x2048.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x2048.size a ≤ S128x2048.size a
  hwx0_9 : ∀ i : grid0.Coords, EltTy.bits .bf16 = 32 ∨ (Rect.block (s := S128x2048) S128x2048.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S16384x512.size a
  hwx0_10 : ∀ i : grid0.Coords, EltTy.bits .f32 = 32 ∨ (Rect.block (s := S16384x512) S512x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x512.size a ≤ S16384x512.size a
  hwx0_11 : ∀ i : grid0.Coords, EltTy.bits .f32 = 32 ∨ (Rect.block (s := S16384x512) S512x512.size (cc0_transform_11 i) (hinb0_11 i)).WholeWords (EltTy.packing .f32)

variable [Facts₀]

def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf
def dot_S512x128_S128x2048_S512x2048_1_0_0_1_n_n : DotDims S512x128 S128x2048 S512x2048 where
  lhsContracting := [1]
  rhsContracting := [0]
  lhsNonContracting := [0]
  rhsNonContracting := [1]
  lhsBatch := []
  rhsBatch := []
  wf := dot_S512x128_S128x2048_S512x2048_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S256x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S512x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S128x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S128x2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5_0) S512x512.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v5_1) S512x512.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S16384x256 : Shape := ⟨2, ![16384, 256]⟩
abbrev S16384x512 : Shape := ⟨2, ![16384, 512]⟩
abbrev S16384x128 : Shape := ⟨2, ![16384, 128]⟩
abbrev S256x2048 : Shape := ⟨2, ![256, 2048]⟩
abbrev S512x2048 : Shape := ⟨2, ![512, 2048]⟩
abbrev S2048 : Shape := ⟨1, ![2048]⟩
abbrev S128x2048 : Shape := ⟨2, ![128, 2048]⟩
abbrev S16384x2048 : Shape := ⟨2, ![16384, 2048]⟩
abbrev S1x2048 : Shape := ⟨2, ![1, 2048]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x512, .f32⟩
  | .hbm, ⟨2, _⟩ => ⟨S16384x512, .f32⟩
  | .hbm, ⟨3, _⟩ => ⟨S16384x128, .f32⟩
  | .hbm, ⟨4, _⟩ => ⟨S16384x128, .f32⟩
  | .hbm, ⟨5, _⟩ => ⟨S256x2048, .f32⟩
  | .hbm, ⟨6, _⟩ => ⟨S512x2048, .f32⟩
  | .hbm, ⟨7, _⟩ => ⟨S2048, .f32⟩
  | .hbm, ⟨8, _⟩ => ⟨S128x2048, .f32⟩
  | .hbm, ⟨9, _⟩ => ⟨S128x2048, .f32⟩
  | .hbm, ⟨10, _⟩ => ⟨S16384x2048, .f32⟩
  | .hbm, ⟨11, _⟩ => ⟨S16384x2048, .f32⟩
  | .hbm, ⟨12, _⟩ => ⟨S1x2048, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S16384x512, .f32⟩
  | .hbm, ⟨21, _⟩ => ⟨S16384x512, .f32⟩
  | .hbm, ⟨22, _⟩ => ⟨S16384x512, .f32⟩
  | .hbm, ⟨23, _⟩ => ⟨S_, .f32⟩
  | .hbm, ⟨24, _⟩ => ⟨S16384x512, .f32⟩
  | .hbm, ⟨25, _⟩ => ⟨S16384x512, .f32⟩
  | .hbm, ⟨26, _⟩ => ⟨S_, .f32⟩
  | .hbm, ⟨27, _⟩ => ⟨S16384x512, .f32⟩
  | .hbm, ⟨28, _⟩ => ⟨S16384x512, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S_, .f32⟩
  | .hbm, ⟨33, _⟩ => ⟨S16384x512, .f32⟩
  | .hbm, ⟨34, _⟩ => ⟨S16384x512, .f32⟩
  | .hbm, ⟨35, _⟩ => ⟨S_, .f32⟩
  | .hbm, ⟨36, _⟩ => ⟨S16384x512, .f32⟩
  | .hbm, ⟨37, _⟩ => ⟨S16384x512, .f32⟩
  | .hbm, ⟨38, _⟩ => ⟨S16384x512, .f32⟩
  | .hbm, ⟨39, _⟩ => ⟨S16384x512, .f32⟩
  | .hbm, ⟨40, _⟩ => ⟨S16384x512, .f32⟩
  | .hbm, ⟨41, _⟩ => ⟨S_, .f32⟩
  | .hbm, ⟨42, _⟩ => ⟨S16384x512, .f32⟩
  | .hbm, ⟨43, _⟩ => ⟨S16384x512, .f32⟩
  | .hbm, ⟨44, _⟩ => ⟨S_, .f32⟩
  | .hbm, ⟨45, _⟩ => ⟨S16384x512, .f32⟩
  | .hbm, ⟨46, _⟩ => ⟨S16384x512, .f32⟩
  | .hbm, ⟨47, _⟩ => ⟨S16384x512, .f32⟩
  | .hbm, ⟨48, _⟩ => ⟨S16384x512, .f32⟩
  | .hbm, ⟨49, _⟩ => ⟨S16384x512, .f32⟩
  | .hbm, ⟨50, _⟩ => ⟨S16384x512, .f32⟩
  | .hbm, ⟨51, _⟩ => ⟨S16384x512, .f32⟩
  | .hbm, ⟨52, _⟩ => ⟨S16384x512, .f32⟩
  | .hbm, ⟨53, _⟩ => ⟨S16384x512, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  slices_S16384x2048_S16384x512_0_0 : S16384x2048.Slices ![0, 0] S16384x512
  bcast_S_S16384x512 : S_.BroadcastsInDim S16384x512 (![] : Fin 0 → Fin S16384x512.rank)
  slices_S16384x2048_S16384x512_0_512 : S16384x2048.Slices ![0, 512] S16384x512
  slices_S16384x2048_S16384x512_0_1024 : S16384x2048.Slices ![0, 1024] S16384x512
  slices_S16384x2048_S16384x512_0_1536 : S16384x2048.Slices ![0, 1536] S16384x512
  dot_S16384x256_S256x2048_S16384x2048_1_0_0_1_n_n_wf : DotDims.WF S16384x256 S256x2048 S16384x2048 [1] [0] [0] [1] [] []
  dot_S16384x512_S512x2048_S16384x2048_1_0_0_1_n_n_wf : DotDims.WF S16384x512 S512x2048 S16384x2048 [1] [0] [0] [1] [] []
  dot_S16384x128_S128x2048_S16384x2048_1_0_0_1_n_n_wf : DotDims.WF S16384x128 S128x2048 S16384x2048 [1] [0] [0] [1] [] []

variable [Facts₀]

def dot_S16384x256_S256x2048_S16384x2048_1_0_0_1_n_n : DotDims S16384x256 S256x2048 S16384x2048 where
  lhsContracting := [1]
  rhsContracting := [0]
  lhsNonContracting := [0]
  rhsNonContracting := [1]
  lhsBatch := []
  rhsBatch := []
  wf := dot_S16384x256_S256x2048_S16384x2048_1_0_0_1_n_n_wf
def dot_S16384x512_S512x2048_S16384x2048_1_0_0_1_n_n : DotDims S16384x512 S512x2048 S16384x2048 where
  lhsContracting := [1]
  rhsContracting := [0]
  lhsNonContracting := [0]
  rhsNonContracting := [1]
  lhsBatch := []
  rhsBatch := []
  wf := dot_S16384x512_S512x2048_S16384x2048_1_0_0_1_n_n_wf
def dot_S16384x128_S128x2048_S16384x2048_1_0_0_1_n_n : DotDims S16384x128 S128x2048 S16384x2048 where
  lhsContracting := [1]
  rhsContracting := [0]
  lhsNonContracting := [0]
  rhsNonContracting := [1]
  lhsBatch := []
  rhsBatch := []
  wf := dot_S16384x128_S128x2048_S16384x2048_1_0_0_1_n_n_wf

class Facts : Prop extends Facts₀ where

variable [Facts]
-- ==== Proof.CellSpec.lean ====
/-
  The LSTM cell this certificate is about, as plain mathematics on the extended reals.

  For a batch row `r` and a gate column `g` the pre-activation is the sum of four projections and the bias,
      pre r g = Σₖ x[r,k]·Wx[k,g] + Σₖ h[r,k]·Wh[k,g] + Σₖ s[r,k]·Ws[k,g] + Σₖ t[r,k]·Wt[k,g] + b[g],
  the 2048 gate columns being four bands of 512: input gate (columns j), forget gate (512 + j), output gate
  (1024 + j) and cell candidate (1536 + j). With σ the logistic function,
      c' r j = σ(pre r (512 + j)) · c[r,j] + σ(pre r j) · tanh(pre r (1536 + j)),
      h' r j = tanh(σ(pre r (1024 + j)) · c' r j).
  Nothing here needs the entries to be finite: the only law used later is that addition on the extended reals is
  commutative and associative (`regroup`), which holds at the infinities too.
-/
import Idealize.ShloMosaic.PureOps.Ideal
import Idealize.ShloMosaic.Lib.ValueIdx

noncomputable section

namespace Cert.LstmCell

open Idealize.ShloMosaic Idealize.ShloMosaic.ValueIdx

/-- A rank-2 array of extended reals. -/
abbrev Mat (a b : Nat) : Type := (⟨2, ![a, b]⟩ : Shape).Idx → EReal
/-- A rank-1 array of extended reals. -/
abbrev Row (n : Nat) : Type := (⟨1, ![n]⟩ : Shape).Idx → EReal

/-- The ten arguments of the cell: activations `x`, `h`, `c`, `s`, `t` (one row per batch element) and the
    parameters `Wx`, `Wh`, `b`, `Ws`, `Wt`. -/
structure Args where
  x : Mat 16384 256
  h : Mat 16384 512
  c : Mat 16384 512
  s : Mat 16384 128
  t : Mat 16384 128
  wx : Mat 256 2048
  wh : Mat 512 2048
  b : Row 2048
  ws : Mat 128 2048
  wt : Mat 128 2048

/-- One projection at (row, gate column): the row of `a` against the column of `w`. -/
def proj {K : Nat} (a : Mat 16384 K) (w : Mat K 2048) (r : Fin 16384) (g : Fin 2048) : EReal :=
  ∑ k : Fin K, a (ix2 r k) * w (ix2 k g)

/-- The pre-activation: the four projections added left to right, then the bias. -/
def pre (A : Args) (r : Fin 16384) (g : Fin 2048) : EReal :=
  proj A.x A.wx r g + proj A.h A.wh r g + proj A.s A.ws r g + proj A.t A.wt r g + A.b (ix1 g)

/-- Column `o + j` of the 2048 gate columns, for a band that starts at `o`. -/
def band (o : Nat) (ho : o + 512 ≤ 2048) (j : Fin 512) : Fin 2048 := ⟨o + j.val, by have := j.isLt; omega⟩

/-- The new cell state. -/
def cellNew (A : Args) (r : Fin 16384) (j : Fin 512) : EReal :=
  Ideal.logistic (pre A r (band 512 (by decide) j)) * A.c (ix2 r j)
    + Ideal.logistic (pre A r (band 0 (by decide) j)) * Ideal.tanh (pre A r (band 1536 (by decide) j))

/-- The new hidden state: tanh of the output gate times the new cell state. -/
def hiddenNew (A : Args) (r : Fin 16384) (j : Fin 512) : EReal :=
  Ideal.tanh (Ideal.logistic (pre A r (band 1024 (by decide) j)) * cellNew A r j)

/-- The two results as arrays. -/
def cellArr (A : Args) : Mat 16384 512 := fun i => cellNew A (i 0) (i 1)
def hiddenArr (A : Args) : Mat 16384 512 := fun i => hiddenNew A (i 0) (i 1)

/-- The one law that joins the two programs: the bias added after the second projection and the bias added last
    give the same sum. Commutativity and associativity only, so it holds for every extended real. -/
theorem regroup (p q u v w : EReal) : p + (q + w) + u + v = p + q + u + v + w := by
  simp only [add_assoc, add_comm, add_left_comm]

end Cert.LstmCell

end
-- ==== Proof.RefCell.lean ====
/-
  The reference program computes the cell of CellSpec.lean.

  Read stage by stage, the reference forms the pre-activation as  x·Wx + (h·Wh + b) + s·Ws + t·Wt  (the bias joins the
  second projection), slices it into the four gate bands, spells the logistic function as  1 / (1 + exp(−z)) , and
  combines the gates. `pre_eq` regroups the sum; the logistic spelling is the library's definition of the function
  on the extended reals, so the gates agree by unfolding.
-/
import proofs.«116281_j31585189495421_1_alg».proof.Proof.Gen.ReferenceIdeal.Read
import proofs.«116281_j31585189495421_1_alg».proof.Proof.CellSpec
import Idealize.ShloMosaic.Lib.IdealHost

noncomputable section

namespace Cert.LstmCell.Ref

open Cert.ReferenceIdeal Cert.ReferenceIdeal.Read Idealize.ShloMosaic Idealize.ShloMosaic.ValueIdx Cert.LstmCell

/-- The reference's pre-activation stage is `pre`: each `dot_general` is a projection, the bias is broadcast along
    the rows, and the sum is regrouped. -/
theorem pre_eq (A : Args) (i : S16384x2048.Idx) :
    val_main_v9 (F := Ideal) A.x A.h A.s A.t A.wx A.wh A.b A.ws A.wt i = pre A (i 0) (i 1) := by
  rw [val_main_v9_apply, val_main_v7_apply, val_main_v5_apply, val_main_v4_apply, val_main_v0_apply, val_main_v1_apply,
    val_main_v6_apply, val_main_v8_apply, val_main_v3_apply, val_main_v2_apply]
  simp only [Ideal.addf_def]
  unfold pre proj
  have l0 : ∀ k, lidx_main_v0 i k = ix2 (i 0) k := fun k => funext fun a => by match a with | ⟨0, _⟩ => rfl | ⟨1, _⟩ => rfl
  have r0 : ∀ k, ridx_main_v0 i k = ix2 k (i 1) := fun k => funext fun a => by match a with | ⟨0, _⟩ => rfl | ⟨1, _⟩ => rfl
  have l1 : ∀ k, lidx_main_v1 i k = ix2 (i 0) k := fun k => funext fun a => by match a with | ⟨0, _⟩ => rfl | ⟨1, _⟩ => rfl
  have r1 : ∀ k, ridx_main_v1 i k = ix2 k (i 1) := fun k => funext fun a => by match a with | ⟨0, _⟩ => rfl | ⟨1, _⟩ => rfl
  have l6 : ∀ k, lidx_main_v6 i k = ix2 (i 0) k := fun k => funext fun a => by match a with | ⟨0, _⟩ => rfl | ⟨1, _⟩ => rfl
  have r6 : ∀ k, ridx_main_v6 i k = ix2 k (i 1) := fun k => funext fun a => by match a with | ⟨0, _⟩ => rfl | ⟨1, _⟩ => rfl
  have l8 : ∀ k, lidx_main_v8 i k = ix2 (i 0) k := fun k => funext fun a => by match a with | ⟨0, _⟩ => rfl | ⟨1, _⟩ => rfl
  have r8 : ∀ k, ridx_main_v8 i k = ix2 k (i 1) := fun k => funext fun a => by match a with | ⟨0, _⟩ => rfl | ⟨1, _⟩ => rfl
  have b7 : idx_main_v2 (idx_main_v3 i) = ix1 (i 1) := funext fun a => by match a with | ⟨0, _⟩ => rfl
  simp only [l0, r0, l1, r1, l6, r6, l8, r8, b7]
  exact regroup _ _ _ _ _

/-- The reference's sigmoid,  1 / (1 + exp(−z))  with the host's negation, exponential and quotient and the literal
    one, is the logistic function of the extended reals. -/
theorem sigmoid_eq (z : EReal) :
    FloatOps.hostDivf (F := Ideal) (φ := .f32) (FloatOps.ofBits .f32 0x3F800000#32)
        (FloatOps.addf (FloatOps.ofBits .f32 0x3F800000#32) (FloatOps.hostUnary .exp (FloatOps.hostNegf z)))
      = Ideal.logistic z := by
  simp only [Ideal.hostDivf_def, Ideal.addf_def, Ideal.hostUnary_exp_def, Ideal.hostNegf_def, Ideal.negf_def, Ideal.ofBits_def,
    Ideal.ofBits_one_f32]
  rfl

/-- The four gate bands of the reference's pre-activation. -/
theorem band_in (A : Args) (i : S16384x512.Idx) :
    val_main_v10 (F := Ideal) A.x A.h A.s A.t A.wx A.wh A.b A.ws A.wt i = pre A (i 0) (band 0 (by decide) (i 1)) := by
  rw [val_main_v10_apply, pre_eq]
  congr 1
  exact Fin.ext (by show (i 1).val = 0 + (i 1).val; omega)
theorem band_forget (A : Args) (i : S16384x512.Idx) :
    val_main_v17 (F := Ideal) A.x A.h A.s A.t A.wx A.wh A.b A.ws A.wt i = pre A (i 0) (band 512 (by decide) (i 1)) := by
  rw [val_main_v17_apply, pre_eq]; rfl
theorem band_out (A : Args) (i : S16384x512.Idx) :
    val_main_v24 (F := Ideal) A.x A.h A.s A.t A.wx A.wh A.b A.ws A.wt i = pre A (i 0) (band 1024 (by decide) (i 1)) := by
  rw [val_main_v24_apply, pre_eq]; rfl
theorem band_cand (A : Args) (i : S16384x512.Idx) :
    val_main_v31 (F := Ideal) A.x A.h A.s A.t A.wx A.wh A.b A.ws A.wt i = pre A (i 0) (band 1536 (by decide) (i 1)) := by
  rw [val_main_v31_apply, pre_eq]; rfl

/-- The reference's new cell state is `cellArr`. -/
theorem cell_eq (A : Args) :
    val_main_v35 (F := Ideal) A.x A.h A.c A.s A.t A.wx A.wh A.b A.ws A.wt = cellArr A := by
  funext i
  rw [val_main_v35_apply, val_main_v33_apply, val_main_v34_apply, val_main_v23_apply, val_main_v22_apply, val_main_cst_2_apply,
    val_main_v21_apply, val_main_v20_apply, val_main_cst_1_apply, val_main_v19_apply, val_main_v18_apply, band_forget,
    val_main_v16_apply, val_main_v15_apply, val_main_cst_0_apply, val_main_v14_apply, val_main_v13_apply, val_main_cst_apply,
    val_main_v12_apply, val_main_v11_apply, band_in, val_main_v32_apply, band_cand, sigmoid_eq, sigmoid_eq]
  simp only [Ideal.addf_def, Ideal.mulf_def, Ideal.hostUnary_tanh_def]
  unfold cellArr cellNew
  rw [show A.c i = A.c (ix2 (i 0) (i 1)) from congrArg A.c (eq_ix2 i)]

/-- The reference's new hidden state is `hiddenArr`. -/
theorem hidden_eq (A : Args) :
    val_main_v37 (F := Ideal) A.x A.h A.c A.s A.t A.wx A.wh A.b A.ws A.wt = hiddenArr A := by
  funext i
  rw [val_main_v37_apply, val_main_v36_apply, val_main_v30_apply, val_main_v29_apply, val_main_cst_4_apply, val_main_v28_apply,
    val_main_v27_apply, val_main_cst_3_apply, val_main_v26_apply, val_main_v25_apply, band_out, sigmoid_eq, cell_eq]
  simp only [Ideal.mulf_def, Ideal.hostUnary_tanh_def]
  rfl

end Cert.LstmCell.Ref

end
-- ==== Proof.KernelPre.lean ====
/-
  The kernel's pre-activation on one block of 512 batch rows, read at an index.

  On a block the kernel forms four matrix products into zero accumulators — the block of `x` against `Wx`, of `h` against
  `Wh`, of `s` against `Ws`, of `t` against `Wt` — adds them left to right and then adds the bias row broadcast down
  the 512 rows. The operands pass through a change of float format first, which is the identity on the extended reals,
  and the weights through a shape cast to their own shape. So at (p, g) the value is
      Σₖ x[p,k]·Wx[k,g] + Σₖ h[p,k]·Wh[k,g] + Σₖ s[p,k]·Ws[k,g] + Σₖ t[p,k]·Wt[k,g] + b[0,g].
  Each product at an index is the sum over the one contracted axis of the left operand's row against the right
  operand's column: the three lemmas below say so for the three contraction lengths 256, 512 and 128.
-/
import proofs.«116281_j31585189495421_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.LstmCell.Kernel

open Cert.KernelIdeal Cert.KernelIdeal.Gen Idealize.ShloMosaic Idealize.ShloMosaic.ValueIdx

/-! ## Contraction length 256: the block of `x` against `Wx` -/

theorem lhs256_0 (i : S512x2048.Idx) (q : dot_S512x256_S256x2048_S512x2048_1_0_0_1_n_n.contr.Idx) :
    (dot_S512x256_S256x2048_S512x2048_1_0_0_1_n_n.lhsIdx i q 0).val = (i 0).val := by
  unfold DotDims.lhsIdx
  rw [dif_neg (show ¬(0 : Fin S512x256.rank) ∈ dot_S512x256_S256x2048_S512x2048_1_0_0_1_n_n.lhsBatch by decide), dif_pos (show (0 : Fin S512x256.rank) ∈ dot_S512x256_S256x2048_S512x2048_1_0_0_1_n_n.lhsNonContracting by decide)]
  rfl
theorem lhs256_1 (i : S512x2048.Idx) (q : dot_S512x256_S256x2048_S512x2048_1_0_0_1_n_n.contr.Idx) :
    (dot_S512x256_S256x2048_S512x2048_1_0_0_1_n_n.lhsIdx i q 1).val = (q ⟨0, by decide⟩).val :=
  dot_S512x256_S256x2048_S512x2048_1_0_0_1_n_n.lhsIdx_val_of_single rfl i q
theorem rhs256_0 (i : S512x2048.Idx) (q : dot_S512x256_S256x2048_S512x2048_1_0_0_1_n_n.contr.Idx) :
    (dot_S512x256_S256x2048_S512x2048_1_0_0_1_n_n.rhsIdx i q 0).val = (q ⟨0, by decide⟩).val :=
  dot_S512x256_S256x2048_S512x2048_1_0_0_1_n_n.rhsIdx_val_of_single rfl i q
theorem rhs256_1 (i : S512x2048.Idx) (q : dot_S512x256_S256x2048_S512x2048_1_0_0_1_n_n.contr.Idx) :
    (dot_S512x256_S256x2048_S512x2048_1_0_0_1_n_n.rhsIdx i q 1).val = (i 1).val := by
  unfold DotDims.rhsIdx
  rw [dif_neg (show ¬(1 : Fin S256x2048.rank) ∈ dot_S512x256_S256x2048_S512x2048_1_0_0_1_n_n.rhsBatch by decide), dif_pos (show (1 : Fin S256x2048.rank) ∈ dot_S512x256_S256x2048_S512x2048_1_0_0_1_n_n.rhsNonContracting by decide)]
  rfl

/-- A [512,256] × [256,2048] product into the zero accumulator, at an index: row against column. -/
theorem prod256_apply (l : FVec Ideal S512x256 .bf16) (r : FVec Ideal S256x2048 .bf16) (i : S512x2048.Idx) :
    matmul (F := Ideal) dot_S512x256_S256x2048_S512x2048_1_0_0_1_n_n none l r (constant (F := Ideal) S512x2048 .f32 0x00000000#32) i
      = ∑ k : Fin 256, l (ix2 (i 0) k) * r (ix2 k (i 1)) := by
  simp only [matmul]
  rw [Ideal.matmul_constant_zero_apply, ← Equiv.sum_comp (ValueIdx.contrEquiv1 dot_S512x256_S256x2048_S512x2048_1_0_0_1_n_n 256 rfl rfl).symm]
  refine Finset.sum_congr rfl fun k _ => ?_
  have hk := ValueIdx.contrEquiv1_symm_val dot_S512x256_S256x2048_S512x2048_1_0_0_1_n_n 256 rfl rfl k
  have el : dot_S512x256_S256x2048_S512x2048_1_0_0_1_n_n.lhsIdx i ((ValueIdx.contrEquiv1 dot_S512x256_S256x2048_S512x2048_1_0_0_1_n_n 256 rfl rfl).symm k) = ix2 (i 0) k := funext fun a => Fin.ext (by
    match a with
    | ⟨0, _⟩ => exact lhs256_0 _ _
    | ⟨1, _⟩ => exact (lhs256_1 _ _).trans hk)
  have er : dot_S512x256_S256x2048_S512x2048_1_0_0_1_n_n.rhsIdx i ((ValueIdx.contrEquiv1 dot_S512x256_S256x2048_S512x2048_1_0_0_1_n_n 256 rfl rfl).symm k) = ix2 k (i 1) := funext fun a => Fin.ext (by
    match a with
    | ⟨0, _⟩ => exact (rhs256_0 _ _).trans hk
    | ⟨1, _⟩ => exact rhs256_1 _ _)
  rw [el, er]
  rfl

/-! ## Contraction length 512: the block of `h` against `Wh` -/

theorem lhs512_0 (i : S512x2048.Idx) (q : dot_S512x512_S512x2048_S512x2048_1_0_0_1_n_n.contr.Idx) :
    (dot_S512x512_S512x2048_S512x2048_1_0_0_1_n_n.lhsIdx i q 0).val = (i 0).val := by
  unfold DotDims.lhsIdx
  rw [dif_neg (show ¬(0 : Fin S512x512.rank) ∈ dot_S512x512_S512x2048_S512x2048_1_0_0_1_n_n.lhsBatch by decide), dif_pos (show (0 : Fin S512x512.rank) ∈ dot_S512x512_S512x2048_S512x2048_1_0_0_1_n_n.lhsNonContracting by decide)]
  rfl
theorem lhs512_1 (i : S512x2048.Idx) (q : dot_S512x512_S512x2048_S512x2048_1_0_0_1_n_n.contr.Idx) :
    (dot_S512x512_S512x2048_S512x2048_1_0_0_1_n_n.lhsIdx i q 1).val = (q ⟨0, by decide⟩).val :=
  dot_S512x512_S512x2048_S512x2048_1_0_0_1_n_n.lhsIdx_val_of_single rfl i q
theorem rhs512_0 (i : S512x2048.Idx) (q : dot_S512x512_S512x2048_S512x2048_1_0_0_1_n_n.contr.Idx) :
    (dot_S512x512_S512x2048_S512x2048_1_0_0_1_n_n.rhsIdx i q 0).val = (q ⟨0, by decide⟩).val :=
  dot_S512x512_S512x2048_S512x2048_1_0_0_1_n_n.rhsIdx_val_of_single rfl i q
theorem rhs512_1 (i : S512x2048.Idx) (q : dot_S512x512_S512x2048_S512x2048_1_0_0_1_n_n.contr.Idx) :
    (dot_S512x512_S512x2048_S512x2048_1_0_0_1_n_n.rhsIdx i q 1).val = (i 1).val := by
  unfold DotDims.rhsIdx
  rw [dif_neg (show ¬(1 : Fin S512x2048.rank) ∈ dot_S512x512_S512x2048_S512x2048_1_0_0_1_n_n.rhsBatch by decide), dif_pos (show (1 : Fin S512x2048.rank) ∈ dot_S512x512_S512x2048_S512x2048_1_0_0_1_n_n.rhsNonContracting by decide)]
  rfl

/-- A [512,512] × [512,2048] product into the zero accumulator, at an index: row against column. -/
theorem prod512_apply (l : FVec Ideal S512x512 .bf16) (r : FVec Ideal S512x2048 .bf16) (i : S512x2048.Idx) :
    matmul (F := Ideal) dot_S512x512_S512x2048_S512x2048_1_0_0_1_n_n none l r (constant (F := Ideal) S512x2048 .f32 0x00000000#32) i
      = ∑ k : Fin 512, l (ix2 (i 0) k) * r (ix2 k (i 1)) := by
  simp only [matmul]
  rw [Ideal.matmul_constant_zero_apply, ← Equiv.sum_comp (ValueIdx.contrEquiv1 dot_S512x512_S512x2048_S512x2048_1_0_0_1_n_n 512 rfl rfl).symm]
  refine Finset.sum_congr rfl fun k _ => ?_
  have hk := ValueIdx.contrEquiv1_symm_val dot_S512x512_S512x2048_S512x2048_1_0_0_1_n_n 512 rfl rfl k
  have el : dot_S512x512_S512x2048_S512x2048_1_0_0_1_n_n.lhsIdx i ((ValueIdx.contrEquiv1 dot_S512x512_S512x2048_S512x2048_1_0_0_1_n_n 512 rfl rfl).symm k) = ix2 (i 0) k := funext fun a => Fin.ext (by
    match a with
    | ⟨0, _⟩ => exact lhs512_0 _ _
    | ⟨1, _⟩ => exact (lhs512_1 _ _).trans hk)
  have er : dot_S512x512_S512x2048_S512x2048_1_0_0_1_n_n.rhsIdx i ((ValueIdx.contrEquiv1 dot_S512x512_S512x2048_S512x2048_1_0_0_1_n_n 512 rfl rfl).symm k) = ix2 k (i 1) := funext fun a => Fin.ext (by
    match a with
    | ⟨0, _⟩ => exact (rhs512_0 _ _).trans hk
    | ⟨1, _⟩ => exact rhs512_1 _ _)
  rw [el, er]
  rfl

/-! ## Contraction length 128: the blocks of `s` and `t` against `Ws` and `Wt` -/

theorem lhs128_0 (i : S512x2048.Idx) (q : dot_S512x128_S128x2048_S512x2048_1_0_0_1_n_n.contr.Idx) :
    (dot_S512x128_S128x2048_S512x2048_1_0_0_1_n_n.lhsIdx i q 0).val = (i 0).val := by
  unfold DotDims.lhsIdx
  rw [dif_neg (show ¬(0 : Fin S512x128.rank) ∈ dot_S512x128_S128x2048_S512x2048_1_0_0_1_n_n.lhsBatch by decide), dif_pos (show (0 : Fin S512x128.rank) ∈ dot_S512x128_S128x2048_S512x2048_1_0_0_1_n_n.lhsNonContracting by decide)]
  rfl
theorem lhs128_1 (i : S512x2048.Idx) (q : dot_S512x128_S128x2048_S512x2048_1_0_0_1_n_n.contr.Idx) :
    (dot_S512x128_S128x2048_S512x2048_1_0_0_1_n_n.lhsIdx i q 1).val = (q ⟨0, by decide⟩).val :=
  dot_S512x128_S128x2048_S512x2048_1_0_0_1_n_n.lhsIdx_val_of_single rfl i q
theorem rhs128_0 (i : S512x2048.Idx) (q : dot_S512x128_S128x2048_S512x2048_1_0_0_1_n_n.contr.Idx) :
    (dot_S512x128_S128x2048_S512x2048_1_0_0_1_n_n.rhsIdx i q 0).val = (q ⟨0, by decide⟩).val :=
  dot_S512x128_S128x2048_S512x2048_1_0_0_1_n_n.rhsIdx_val_of_single rfl i q
theorem rhs128_1 (i : S512x2048.Idx) (q : dot_S512x128_S128x2048_S512x2048_1_0_0_1_n_n.contr.Idx) :
    (dot_S512x128_S128x2048_S512x2048_1_0_0_1_n_n.rhsIdx i q 1).val = (i 1).val := by
  unfold DotDims.rhsIdx
  rw [dif_neg (show ¬(1 : Fin S128x2048.rank) ∈ dot_S512x128_S128x2048_S512x2048_1_0_0_1_n_n.rhsBatch by decide), dif_pos (show (1 : Fin S128x2048.rank) ∈ dot_S512x128_S128x2048_S512x2048_1_0_0_1_n_n.rhsNonContracting by decide)]
  rfl

/-- A [512,128] × [128,2048] product into the zero accumulator, at an index: row against column. -/
theorem prod128_apply (l : FVec Ideal S512x128 .bf16) (r : FVec Ideal S128x2048 .bf16) (i : S512x2048.Idx) :
    matmul (F := Ideal) dot_S512x128_S128x2048_S512x2048_1_0_0_1_n_n none l r (constant (F := Ideal) S512x2048 .f32 0x00000000#32) i
      = ∑ k : Fin 128, l (ix2 (i 0) k) * r (ix2 k (i 1)) := by
  simp only [matmul]
  rw [Ideal.matmul_constant_zero_apply, ← Equiv.sum_comp (ValueIdx.contrEquiv1 dot_S512x128_S128x2048_S512x2048_1_0_0_1_n_n 128 rfl rfl).symm]
  refine Finset.sum_congr rfl fun k _ => ?_
  have hk := ValueIdx.contrEquiv1_symm_val dot_S512x128_S128x2048_S512x2048_1_0_0_1_n_n 128 rfl rfl k
  have el : dot_S512x128_S128x2048_S512x2048_1_0_0_1_n_n.lhsIdx i ((ValueIdx.contrEquiv1 dot_S512x128_S128x2048_S512x2048_1_0_0_1_n_n 128 rfl rfl).symm k) = ix2 (i 0) k := funext fun a => Fin.ext (by
    match a with
    | ⟨0, _⟩ => exact lhs128_0 _ _
    | ⟨1, _⟩ => exact (lhs128_1 _ _).trans hk)
  have er : dot_S512x128_S128x2048_S512x2048_1_0_0_1_n_n.rhsIdx i ((ValueIdx.contrEquiv1 dot_S512x128_S128x2048_S512x2048_1_0_0_1_n_n 128 rfl rfl).symm k) = ix2 k (i 1) := funext fun a => Fin.ext (by
    match a with
    | ⟨0, _⟩ => exact (rhs128_0 _ _).trans hk
    | ⟨1, _⟩ => exact rhs128_1 _ _)
  rw [el, er]
  rfl

/-! ## The block's pre-activation at an index -/

/-- The kernel's pre-activation of a block, at row `p` of the block and gate column `g`: the four row-against-column
    sums, left to right, then the bias row's entry `g`. -/
theorem blockPre_apply (x : Vec Ideal S512x256 .f32) (h : Vec Ideal S512x512 .f32) (s t : Vec Ideal S512x128 .f32)
    (wx : Vec Ideal S256x2048 .bf16) (wh : Vec Ideal S512x2048 .bf16) (ws wt : Vec Ideal S128x2048 .bf16)
    (b : Vec Ideal S1x2048 .f32) (p : Fin 512) (g : Fin 2048) :
    k0_pay3 (F := Ideal) x h s t wx wh ws wt b (ix2 p g)
      = (∑ k : Fin 256, x (ix2 p k) * wx (ix2 k g)) + (∑ k : Fin 512, h (ix2 p k) * wh (ix2 k g))
        + (∑ k : Fin 128, s (ix2 p k) * ws (ix2 k g)) + (∑ k : Fin 128, t (ix2 p k) * wt (ix2 k g)) + b (ix2 (0 : Fin 1) g) := by
  unfold k0_pay3
  simp only [shapeCast_self]
  show (matmul (F := Ideal) dot_S512x256_S256x2048_S512x2048_1_0_0_1_n_n none _ _ (constant (F := Ideal) S512x2048 .f32 0x00000000#32) (ix2 p g)
      + matmul (F := Ideal) dot_S512x512_S512x2048_S512x2048_1_0_0_1_n_n none _ _ (constant (F := Ideal) S512x2048 .f32 0x00000000#32) (ix2 p g)
      + matmul (F := Ideal) dot_S512x128_S128x2048_S512x2048_1_0_0_1_n_n none _ _ (constant (F := Ideal) S512x2048 .f32 0x00000000#32) (ix2 p g)
      + matmul (F := Ideal) dot_S512x128_S128x2048_S512x2048_1_0_0_1_n_n none _ _ (constant (F := Ideal) S512x2048 .f32 0x00000000#32) (ix2 p g)
      + broadcastTo S512x2048 b broadcasts_S1x2048_S512x2048 (ix2 p g) : EReal) = _
  rw [prod256_apply, prod512_apply, prod128_apply, prod128_apply, broadcastTo_1b_ab_apply]
  rfl

/-- The same with each operand NAMED at the entries the sums read: whatever the block's row `p` and the parameters'
    column `g` are known to hold, the pre-activation is the sums over those. -/
theorem blockPre_apply_of (x : Vec Ideal S512x256 .f32) (h : Vec Ideal S512x512 .f32) (s t : Vec Ideal S512x128 .f32)
    (wx : Vec Ideal S256x2048 .bf16) (wh : Vec Ideal S512x2048 .bf16) (ws wt : Vec Ideal S128x2048 .bf16)
    (b : Vec Ideal S1x2048 .f32) (p : Fin 512) (g : Fin 2048)
    (X WX : Fin 256 → EReal) (H WH : Fin 512 → EReal) (S WS T WT : Fin 128 → EReal) (B : EReal)
    (hx : ∀ k, x (ix2 p k) = X k) (hwx : ∀ k, wx (ix2 k g) = WX k) (hh : ∀ k, h (ix2 p k) = H k) (hwh : ∀ k, wh (ix2 k g) = WH k)
    (hs : ∀ k, s (ix2 p k) = S k) (hws : ∀ k, ws (ix2 k g) = WS k) (ht : ∀ k, t (ix2 p k) = T k) (hwt : ∀ k, wt (ix2 k g) = WT k)
    (hb : b (ix2 (0 : Fin 1) g) = B) :
    k0_pay3 (F := Ideal) x h s t wx wh ws wt b (ix2 p g)
      = (∑ k : Fin 256, X k * WX k) + (∑ k : Fin 512, H k * WH k) + (∑ k : Fin 128, S k * WS k) + (∑ k : Fin 128, T k * WT k) + B := by
  rw [blockPre_apply, hb]
  simp only [hx, hwx, hh, hwh, hs, hws, ht, hwt]

end Cert.LstmCell.Kernel

end
-- ==== Proof.CellRun.lean ====
/-
  From the kernel's 32 blocks to its two result arrays.

  Grid point t works on batch rows 512·t … 512·t + 511: the windows of `x`, `h`, `c`, `s`, `t` and of both results take
  block t of rows there, while the windows of the parameters stay on their whole arrays. The host prepares the parameters
  before the launch: it narrows the four weight matrices to a shorter float format, which on the extended reals leaves them
  as they are, and reshapes the bias to one row of 2048. So row p of a block of `x` is row 512·t + p of `x`, and likewise
  for the other activations, and the pre-activation the body forms on the block (KernelPre.lean) is the cell's
  pre-activation at that batch row. The body slices it into the four gate bands and combines them with the block of
  `c` exactly as the cell does, so what point t writes back to each result is block t of the cell's new hidden state and
  new cell state. Row r lies in block r / 512, so the 32 blocks tile both result arrays, which therefore end holding
  those two functions of the arguments.
-/
import proofs.«116281_j31585189495421_1_alg».proof.Proof.Gen.KernelIdeal.Value
import proofs.«116281_j31585189495421_1_alg».proof.Proof.CellSpec
import proofs.«116281_j31585189495421_1_alg».proof.Proof.KernelPre
import Idealize.ShloMosaic.Lib.Pipeline.Value
import Idealize.ShloMosaic.Lib.StableHlo.Run

noncomputable section

namespace Cert.LstmCell.Kernel

open Cert.KernelIdeal Cert.KernelIdeal.Gen Cert.KernelIdeal.Value Idealize.ShloMosaic Idealize.ShloMosaic.TcCoe Idealize.SL.Sem Idealize.ShloMosaic.ValueIdx Cert.LstmCell
open Idealize.ShloMosaic.Pipeline (Dat)

variable (m : (ℓ : Loc nD τ sig) → Buf (Elt Ideal) ℓ) (ρ : Dev nD → PrngReg)

/-- The cell's ten arguments, as launched on core `c`. -/
def args (c : Dev nD) : Args where
  x := m ((c : Thread nD τ).loc main_arg0)
  h := m ((c : Thread nD τ).loc main_arg1)
  c := m ((c : Thread nD τ).loc main_arg2)
  s := m ((c : Thread nD τ).loc main_arg3)
  t := m ((c : Thread nD τ).loc main_arg4)
  wx := m ((c : Thread nD τ).loc main_arg5)
  wh := m ((c : Thread nD τ).loc main_arg6)
  b := m ((c : Thread nD τ).loc main_arg7)
  ws := m ((c : Thread nD τ).loc main_arg8)
  wt := m ((c : Thread nD τ).loc main_arg9)

theorem hz : (![0, 0] : Fin 2 → Nat) = fun _ => 0 := funext fun a => by fin_cases a <;> rfl

/-! ## What the region finds: the host's casts of the weights are the weights, its reshape of the bias the bias as one row -/

theorem V_wx (c : Dev nD) : (V m c main_v0 : S256x2048.Idx → EReal) = (args m c).wx := by
  dsimp only [V, hostOps0]; after_results; rfl
theorem V_wh (c : Dev nD) : (V m c main_v1 : S512x2048.Idx → EReal) = (args m c).wh := by
  dsimp only [V, hostOps0]; after_results; rfl
theorem V_ws (c : Dev nD) : (V m c main_v2 : S128x2048.Idx → EReal) = (args m c).ws := by
  dsimp only [V, hostOps0]; after_results; rfl
theorem V_wt (c : Dev nD) : (V m c main_v3 : S128x2048.Idx → EReal) = (args m c).wt := by
  dsimp only [V, hostOps0]; after_results; rfl
theorem V_b (c : Dev nD) (g : Fin 2048) : (V m c main_v4 : S1x2048.Idx → EReal) (ix2 (0 : Fin 1) g) = (args m c).b (ix1 g) := by
  dsimp only [V, hostOps0]; after_results
  show shapeCast S1x2048 (m ((c : Thread nD τ).loc main_arg7)) shapeCasts_S2048_S1x2048 (ix2 (0 : Fin 1) g) = _
  refine (shapeCast_addUnit_apply ![2048] _ _ (ix2 (0 : Fin 1) g)).trans ?_
  show m _ _ = m _ _
  congr 1
  funext a
  match a with | ⟨0, _⟩ => rfl

/-! ## The index maps, decided over the 32 grid points -/

/-- The activation windows and both output windows take block `t` of rows at point `t`; the parameter windows stay at
    block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0) :=
  (by decide +kernel : ∀ t : Fin grid0.N, _)

/-- Batch row 512·t + p: row `p` of the block of rows that grid point `t` works on. -/
def rowOf (t : Fin cfg0.N) (p : Fin 512) : Fin 16384 :=
  ⟨512 * t.val + p.val, by have ht : t.val < 32 := lt_of_lt_of_eq t.isLt N_0; have := p.isLt; omega⟩

/-! ## Each window's block at point `t`, as entries of its argument -/

theorem xblk_apply (c : Dev nD) (t : Fin cfg0.N) (p : Fin 512) (k : Fin 256) :
    (iblk m c 0 t : Vec Ideal S512x256 .f32) (ix2 p k) = (args m c).x (ix2 (rowOf t p) k) := by
  have hi := (idx_facts t).1
  unfold iblk
  rw [View.read_apply]
  show V m c main_arg0 _ = _
  refine (congrFun (V_main_arg0 m c) _).trans ?_
  show m _ _ = m _ _
  congr 1
  funext a; apply Fin.ext
  match a with
  | ⟨0, _⟩ => show win0_0.index t (0 : Fin 2) * 512 + 1 * p.val = 512 * t.val + p.val; rw [hi.1]; omega
  | ⟨1, _⟩ => show win0_0.index t (1 : Fin 2) * 256 + 1 * k.val = k.val; rw [hi.2]; omega

theorem hblk_apply (c : Dev nD) (t : Fin cfg0.N) (p : Fin 512) (k : Fin 512) :
    (iblk m c 1 t : Vec Ideal S512x512 .f32) (ix2 p k) = (args m c).h (ix2 (rowOf t p) k) := by
  have hi := (idx_facts t).2.1
  unfold iblk
  rw [View.read_apply]
  show V m c main_arg1 _ = _
  refine (congrFun (V_main_arg1 m c) _).trans ?_
  show m _ _ = m _ _
  congr 1
  funext a; apply Fin.ext
  match a with
  | ⟨0, _⟩ => show win0_1.index t (0 : Fin 2) * 512 + 1 * p.val = 512 * t.val + p.val; rw [hi.1]; omega
  | ⟨1, _⟩ => show win0_1.index t (1 : Fin 2) * 512 + 1 * k.val = k.val; rw [hi.2]; omega

theorem cblk_apply (c : Dev nD) (t : Fin cfg0.N) (p : Fin 512) (j : Fin 512) :
    (iblk m c 2 t : Vec Ideal S512x512 .f32) (ix2 p j) = (args m c).c (ix2 (rowOf t p) j) := by
  have hi := (idx_facts t).2.2.1
  unfold iblk
  rw [View.read_apply]
  show V m c main_arg2 _ = _
  refine (congrFun (V_main_arg2 m c) _).trans ?_
  show m _ _ = m _ _
  congr 1
  funext a; apply Fin.ext
  match a with
  | ⟨0, _⟩ => show win0_2.index t (0 : Fin 2) * 512 + 1 * p.val = 512 * t.val + p.val; rw [hi.1]; omega
  | ⟨1, _⟩ => show win0_2.index t (1 : Fin 2) * 512 + 1 * j.val = j.val; rw [hi.2]; omega

theorem sblk_apply (c : Dev nD) (t : Fin cfg0.N) (p : Fin 512) (k : Fin 128) :
    (iblk m c 3 t : Vec Ideal S512x128 .f32) (ix2 p k) = (args m c).s (ix2 (rowOf t p) k) := by
  have hi := (idx_facts t).2.2.2.1
  unfold iblk
  rw [View.read_apply]
  show V m c main_arg3 _ = _
  refine (congrFun (V_main_arg3 m c) _).trans ?_
  show m _ _ = m _ _
  congr 1
  funext a; apply Fin.ext
  match a with
  | ⟨0, _⟩ => show win0_3.index t (0 : Fin 2) * 512 + 1 * p.val = 512 * t.val + p.val; rw [hi.1]; omega
  | ⟨1, _⟩ => show win0_3.index t (1 : Fin 2) * 128 + 1 * k.val = k.val; rw [hi.2]; omega

theorem tblk_apply (c : Dev nD) (t : Fin cfg0.N) (p : Fin 512) (k : Fin 128) :
    (iblk m c 4 t : Vec Ideal S512x128 .f32) (ix2 p k) = (args m c).t (ix2 (rowOf t p) k) := by
  have hi := (idx_facts t).2.2.2.2.1
  unfold iblk
  rw [View.read_apply]
  show V m c main_arg4 _ = _
  refine (congrFun (V_main_arg4 m c) _).trans ?_
  show m _ _ = m _ _
  congr 1
  funext a; apply Fin.ext
  match a with
  | ⟨0, _⟩ => show win0_4.index t (0 : Fin 2) * 512 + 1 * p.val = 512 * t.val + p.val; rw [hi.1]; omega
  | ⟨1, _⟩ => show win0_4.index t (1 : Fin 2) * 128 + 1 * k.val = k.val; rw [hi.2]; omega

theorem wxblk_apply (c : Dev nD) (t : Fin cfg0.N) (k : Fin 256) (g : Fin 2048) :
    (iblk m c 5 t : Vec Ideal S256x2048 .bf16) (ix2 k g) = (args m c).wx (ix2 k g) := by
  have hi := (idx_facts t).2.2.2.2.2.1
  unfold iblk
  rw [View.read_apply]
  show (V m c main_v0 : S256x2048.Idx → EReal) _ = _
  refine (congrFun (V_wx m c) _).trans ?_
  congr 1
  funext a; apply Fin.ext
  match a with
  | ⟨0, _⟩ => show win0_5.index t (0 : Fin 2) * 256 + 1 * k.val = k.val; rw [hi.1]; omega
  | ⟨1, _⟩ => show win0_5.index t (1 : Fin 2) * 2048 + 1 * g.val = g.val; rw [hi.2]; omega

theorem whblk_apply (c : Dev nD) (t : Fin cfg0.N) (k : Fin 512) (g : Fin 2048) :
    (iblk m c 6 t : Vec Ideal S512x2048 .bf16) (ix2 k g) = (args m c).wh (ix2 k g) := by
  have hi := (idx_facts t).2.2.2.2.2.2.1
  unfold iblk
  rw [View.read_apply]
  show (V m c main_v1 : S512x2048.Idx → EReal) _ = _
  refine (congrFun (V_wh m c) _).trans ?_
  congr 1
  funext a; apply Fin.ext
  match a with
  | ⟨0, _⟩ => show win0_6.index t (0 : Fin 2) * 512 + 1 * k.val = k.val; rw [hi.1]; omega
  | ⟨1, _⟩ => show win0_6.index t (1 : Fin 2) * 2048 + 1 * g.val = g.val; rw [hi.2]; omega

theorem bblk_apply (c : Dev nD) (t : Fin cfg0.N) (g : Fin 2048) :
    (iblk m c 7 t : Vec Ideal S1x2048 .f32) (ix2 (0 : Fin 1) g) = (args m c).b (ix1 g) := by
  have hi := (idx_facts t).2.2.2.2.2.2.2.1
  unfold iblk
  rw [View.read_apply]
  show (V m c main_v4 : S1x2048.Idx → EReal) _ = _
  refine (congrArg (V m c main_v4 : S1x2048.Idx → EReal) (?_ : _ = ix2 (0 : Fin 1) g)).trans (V_b m c g)
  funext a; apply Fin.ext
  match a with
  | ⟨0, _⟩ => show win0_7.index t (0 : Fin 2) * 1 + 1 * 0 = 0; rw [hi.1]
  | ⟨1, _⟩ => show win0_7.index t (1 : Fin 2) * 2048 + 1 * g.val = g.val; rw [hi.2]; omega

theorem wsblk_apply (c : Dev nD) (t : Fin cfg0.N) (k : Fin 128) (g : Fin 2048) :
    (iblk m c 8 t : Vec Ideal S128x2048 .bf16) (ix2 k g) = (args m c).ws (ix2 k g) := by
  have hi := (idx_facts t).2.2.2.2.2.2.2.2.1
  unfold iblk
  rw [View.read_apply]
  show (V m c main_v2 : S128x2048.Idx → EReal) _ = _
  refine (congrFun (V_ws m c) _).trans ?_
  congr 1
  funext a; apply Fin.ext
  match a with
  | ⟨0, _⟩ => show win0_8.index t (0 : Fin 2) * 128 + 1 * k.val = k.val; rw [hi.1]; omega
  | ⟨1, _⟩ => show win0_8.index t (1 : Fin 2) * 2048 + 1 * g.val = g.val; rw [hi.2]; omega

theorem wtblk_apply (c : Dev nD) (t : Fin cfg0.N) (k : Fin 128) (g : Fin 2048) :
    (iblk m c 9 t : Vec Ideal S128x2048 .bf16) (ix2 k g) = (args m c).wt (ix2 k g) := by
  have hi := (idx_facts t).2.2.2.2.2.2.2.2.2.1
  unfold iblk
  rw [View.read_apply]
  show (V m c main_v3 : S128x2048.Idx → EReal) _ = _
  refine (congrFun (V_wt m c) _).trans ?_
  congr 1
  funext a; apply Fin.ext
  match a with
  | ⟨0, _⟩ => show win0_9.index t (0 : Fin 2) * 128 + 1 * k.val = k.val; rw [hi.1]; omega
  | ⟨1, _⟩ => show win0_9.index t (1 : Fin 2) * 2048 + 1 * g.val = g.val; rw [hi.2]; omega

/-! ## The block's pre-activation is the cell's, at batch row 512·t + p -/

theorem blockPre_eq (c : Dev nD) (t : Fin cfg0.N) (p : Fin 512) (g : Fin 2048) :
    k0_pay3 (F := Ideal) (iblk m c 0 t) (iblk m c 1 t) (iblk m c 3 t) (iblk m c 4 t) (iblk m c 5 t) (iblk m c 6 t)
        (iblk m c 8 t) (iblk m c 9 t) (iblk m c 7 t) (ix2 p g)
      = pre (args m c) (rowOf t p) g :=
  blockPre_apply_of (iblk m c 0 t) (iblk m c 1 t) (iblk m c 3 t) (iblk m c 4 t) (iblk m c 5 t) (iblk m c 6 t)
    (iblk m c 8 t) (iblk m c 9 t) (iblk m c 7 t) p g
    (fun k => (args m c).x (ix2 (rowOf t p) k)) (fun k => (args m c).wx (ix2 k g))
    (fun k => (args m c).h (ix2 (rowOf t p) k)) (fun k => (args m c).wh (ix2 k g))
    (fun k => (args m c).s (ix2 (rowOf t p) k)) (fun k => (args m c).ws (ix2 k g))
    (fun k => (args m c).t (ix2 (rowOf t p) k)) (fun k => (args m c).wt (ix2 k g))
    ((args m c).b (ix1 g))
    (fun k => xblk_apply m c t p k) (fun k => wxblk_apply m c t k g)
    (fun k => hblk_apply m c t p k) (fun k => whblk_apply m c t k g)
    (fun k => sblk_apply m c t p k) (fun k => wsblk_apply m c t k g)
    (fun k => tblk_apply m c t p k) (fun k => wtblk_apply m c t k g)
    (bblk_apply m c t g)

/-! ## What the body leaves in the two output blocks -/

/-- The body's one store into each output block is through the whole block, and its loads read whole blocks: the
    block it leaves is the pointwise function of the loads that the value leg names. -/
theorem hiddenOut_apply (x0 : Vec Ideal S512x256 .f32) (x1 x2 : Vec Ideal S512x512 .f32) (x3 x4 : Vec Ideal S512x128 .f32)
    (x5 : Vec Ideal S256x2048 .bf16) (x6 : Vec Ideal S512x2048 .bf16) (x7 : Vec Ideal S1x2048 .f32)
    (x8 x9 : Vec Ideal S128x2048 .bf16) (y : S512x512.Idx) :
    out0_10 (F := Ideal) x0 x1 x2 x3 x4 x5 x6 x7 x8 x9 y = E10 (F := Ideal) x0 x1 x3 x4 x5 x6 x8 x9 x7 x2 y := by
  unfold out0_10
  rw [canon10_eq]
  simp only [View.ld_unit_zero (S := S512x256) hz, View.ld_unit_zero (S := S512x512) hz, View.ld_unit_zero (S := S512x128) hz,
    View.ld_unit_zero (S := S256x2048) hz, View.ld_unit_zero (S := S512x2048) hz, View.ld_unit_zero (S := S128x2048) hz,
    View.ld_unit_zero (S := S1x2048) hz]

theorem cellOut_apply (x0 : Vec Ideal S512x256 .f32) (x1 x2 : Vec Ideal S512x512 .f32) (x3 x4 : Vec Ideal S512x128 .f32)
    (x5 : Vec Ideal S256x2048 .bf16) (x6 : Vec Ideal S512x2048 .bf16) (x7 : Vec Ideal S1x2048 .f32)
    (x8 x9 : Vec Ideal S128x2048 .bf16) (y : S512x512.Idx) :
    out0_11 (F := Ideal) x0 x1 x2 x3 x4 x5 x6 x7 x8 x9 y = E11 (F := Ideal) x0 x1 x3 x4 x5 x6 x8 x9 x7 x2 y := by
  unfold out0_11
  rw [canon11_eq]
  simp only [View.ld_unit_zero (S := S512x256) hz, View.ld_unit_zero (S := S512x512) hz, View.ld_unit_zero (S := S512x128) hz,
    View.ld_unit_zero (S := S256x2048) hz, View.ld_unit_zero (S := S512x2048) hz, View.ld_unit_zero (S := S128x2048) hz,
    View.ld_unit_zero (S := S1x2048) hz]

/-- Point `t`'s cell-state block is the new cell state of batch rows 512·t … 512·t + 511. -/
theorem cellBlock_apply (c : Dev nD) (t : Fin cfg0.N) (p q : Fin 512) :
    E11 (F := Ideal) (iblk m c 0 t) (iblk m c 1 t) (iblk m c 3 t) (iblk m c 4 t) (iblk m c 5 t) (iblk m c 6 t) (iblk m c 8 t)
        (iblk m c 9 t) (iblk m c 7 t) (iblk m c 2 t) (ix2 p q)
      = cellNew (args m c) (rowOf t p) q := by
  have h0 : ix11_0 (ix2 p q) = ix2 p (band 512 (by decide) q) := funext fun a => Fin.ext (by
    match a with | ⟨0, _⟩ => rfl | ⟨1, _⟩ => show q.val + 512 = 512 + q.val; omega)
  have h1 : ix11_1 (ix2 p q) = ix2 p q := funext fun a => Fin.ext (by match a with | ⟨0, _⟩ => rfl | ⟨1, _⟩ => rfl)
  have h2 : ix11_2 (ix2 p q) = ix2 p (band 0 (by decide) q) := funext fun a => Fin.ext (by
    match a with | ⟨0, _⟩ => rfl | ⟨1, _⟩ => show q.val = 0 + q.val; omega)
  have h3 : ix11_3 (ix2 p q) = ix2 p (band 1536 (by decide) q) := funext fun a => Fin.ext (by
    match a with | ⟨0, _⟩ => rfl | ⟨1, _⟩ => show q.val + 1536 = 1536 + q.val; omega)
  dsimp only [E11]
  rw [h0, h1, h2, h3, blockPre_eq, blockPre_eq, blockPre_eq, cblk_apply]
  rfl

/-- Point `t`'s hidden-state block is the new hidden state of the same rows. -/
theorem hiddenBlock_apply (c : Dev nD) (t : Fin cfg0.N) (p q : Fin 512) :
    E10 (F := Ideal) (iblk m c 0 t) (iblk m c 1 t) (iblk m c 3 t) (iblk m c 4 t) (iblk m c 5 t) (iblk m c 6 t) (iblk m c 8 t)
        (iblk m c 9 t) (iblk m c 7 t) (iblk m c 2 t) (ix2 p q)
      = hiddenNew (args m c) (rowOf t p) q := by
  have h0 : ix10_0 (ix2 p q) = ix2 p (band 1024 (by decide) q) := funext fun a => Fin.ext (by
    match a with | ⟨0, _⟩ => rfl | ⟨1, _⟩ => show q.val + 1024 = 1024 + q.val; omega)
  have h1 : ix10_1 (ix2 p q) = ix2 p (band 512 (by decide) q) := funext fun a => Fin.ext (by
    match a with | ⟨0, _⟩ => rfl | ⟨1, _⟩ => show q.val + 512 = 512 + q.val; omega)
  have h2 : ix10_2 (ix2 p q) = ix2 p q := funext fun a => Fin.ext (by match a with | ⟨0, _⟩ => rfl | ⟨1, _⟩ => rfl)
  have h3 : ix10_3 (ix2 p q) = ix2 p (band 0 (by decide) q) := funext fun a => Fin.ext (by
    match a with | ⟨0, _⟩ => rfl | ⟨1, _⟩ => show q.val = 0 + q.val; omega)
  have h4 : ix10_4 (ix2 p q) = ix2 p (band 1536 (by decide) q) := funext fun a => Fin.ext (by
    match a with | ⟨0, _⟩ => rfl | ⟨1, _⟩ => show q.val + 1536 = 1536 + q.val; omega)
  dsimp only [E10]
  rw [h0, h1, h2, h3, h4, blockPre_eq, blockPre_eq, blockPre_eq, blockPre_eq, cblk_apply]
  rfl

/-! ## What each point writes back, and the arrays after the run -/

/-- What the body leaves in the cell-state block at point `t`, index by index, is the new cell state read through block `t`. -/
theorem cellFlush_apply (c : Dev nD) (t : Fin cfg0.N) (y : S512x512.Idx) :
    out0_11 (F := Ideal) (iblk m c 0 t) (iblk m c 1 t) (iblk m c 2 t) (iblk m c 3 t) (iblk m c 4 t) (iblk m c 5 t) (iblk m c 6 t)
      (iblk m c 7 t) (iblk m c 8 t) (iblk m c 9 t) y = cellArr (args m c) (((cfg0.win 11).blk t).view.emb y) := by
  have hi := (idx_facts t).2.2.2.2.2.2.2.2.2.2.2
  obtain ⟨p, q, rfl⟩ : ∃ (p : Fin 512) (q : Fin 512), y = ix2 p q := ⟨y 0, y 1, eq_ix2 y⟩
  rw [cellOut_apply, cellBlock_apply]
  unfold cellArr
  congr 1
  · apply Fin.ext
    show 512 * t.val + p.val = win0_11.index t (0 : Fin 2) * 512 + 1 * p.val
    rw [hi.1]; omega
  · apply Fin.ext
    show q.val = win0_11.index t (1 : Fin 2) * 512 + 1 * q.val
    rw [hi.2]; omega

theorem hiddenFlush_apply (c : Dev nD) (t : Fin cfg0.N) (y : S512x512.Idx) :
    out0_10 (F := Ideal) (iblk m c 0 t) (iblk m c 1 t) (iblk m c 2 t) (iblk m c 3 t) (iblk m c 4 t) (iblk m c 5 t) (iblk m c 6 t)
      (iblk m c 7 t) (iblk m c 8 t) (iblk m c 9 t) y = hiddenArr (args m c) (((cfg0.win 10).blk t).view.emb y) := by
  have hi := (idx_facts t).2.2.2.2.2.2.2.2.2.2.1
  obtain ⟨p, q, rfl⟩ : ∃ (p : Fin 512) (q : Fin 512), y = ix2 p q := ⟨y 0, y 1, eq_ix2 y⟩
  rw [hiddenOut_apply, hiddenBlock_apply]
  unfold hiddenArr
  congr 1
  · apply Fin.ext
    show 512 * t.val + p.val = win0_10.index t (0 : Fin 2) * 512 + 1 * p.val
    rw [hi.1]; omega
  · apply Fin.ext
    show q.val = win0_10.index t (1 : Fin 2) * 512 + 1 * q.val
    rw [hi.2]; omega

/-- Point `t` writes back block `t` of the new cell state. -/
theorem flushed_cell (c : Dev nD) (t : Fin cfg0.N) :
    (dats m 0 c).flushed 11 t = ((cfg0.win 11).blk t).view.read (Elt Ideal) (cellArr (args m c)) := by
  rw [flushed11]
  funext y
  exact cellFlush_apply m c t y

/-- Point `t` writes back block `t` of the new hidden state. -/
theorem flushed_hidden (c : Dev nD) (t : Fin cfg0.N) :
    (dats m 0 c).flushed 10 t = ((cfg0.win 10).blk t).view.read (Elt Ideal) (hiddenArr (args m c)) := by
  rw [flushed10]
  funext y
  exact hiddenFlush_apply m c t y

/-- An index of the array is in point `t`'s block iff each coordinate is in the block's range on its axis. -/
theorem mem_blk11 (t : Fin cfg0.N) (i : S16384x512.Idx) :
    i ∈ ((cfg0.win 11).blk t).view.set ↔ ∀ a : Fin 2, win0_11.index t a * S512x512.size a ≤ (i a).val ∧ (i a).val < win0_11.index t a * S512x512.size a + S512x512.size a := by
  show i ∈ ((View.whole main_v5_1).slice (win0_11.rect t)).set ↔ _
  rw [View.set_slice_whole, Rect.mem_set_unit]
  exact Iff.rfl
theorem mem_blk10 (t : Fin cfg0.N) (i : S16384x512.Idx) :
    i ∈ ((cfg0.win 10).blk t).view.set ↔ ∀ a : Fin 2, win0_10.index t a * S512x512.size a ≤ (i a).val ∧ (i a).val < win0_10.index t a * S512x512.size a + S512x512.size a := by
  show i ∈ ((View.whole main_v5_0).slice (win0_10.rect t)).set ↔ _
  rw [View.set_slice_whole, Rect.mem_set_unit]
  exact Iff.rfl

/-- The grid point whose block holds batch row `r`: r / 512. -/
def pointOf (i : S16384x512.Idx) : Fin cfg0.N :=
  ⟨(i 0).val / 512, by have h : (i 0).val < 16384 := (i 0).isLt; exact lt_of_lt_of_eq (by omega : (i 0).val / 512 < 32) N_0.symm⟩

/-- The 32 row blocks tile each output array. -/
theorem cover11 (i : S16384x512.Idx) : ∃ t : Fin cfg0.N, (cfg0.win 11).flush t = true ∧ i ∈ ((cfg0.win 11).blk t).view.set := by
  refine ⟨pointOf i, flush0_11 _, ?_⟩
  have hi := (idx_facts (pointOf i)).2.2.2.2.2.2.2.2.2.2.2
  have h0 : (i 0).val < 16384 := (i 0).isLt
  have h1 : (i 1).val < 512 := (i 1).isLt
  have hp : (pointOf i).val = (i 0).val / 512 := rfl
  rw [mem_blk11]
  intro a
  match a with
  | ⟨0, _⟩ => show win0_11.index (pointOf i) (0 : Fin 2) * 512 ≤ (i 0).val ∧ (i 0).val < win0_11.index (pointOf i) (0 : Fin 2) * 512 + 512; rw [hi.1, hp]; omega
  | ⟨1, _⟩ => show win0_11.index (pointOf i) (1 : Fin 2) * 512 ≤ (i 1).val ∧ (i 1).val < win0_11.index (pointOf i) (1 : Fin 2) * 512 + 512; rw [hi.2]; omega
theorem cover10 (i : S16384x512.Idx) : ∃ t : Fin cfg0.N, (cfg0.win 10).flush t = true ∧ i ∈ ((cfg0.win 10).blk t).view.set := by
  refine ⟨pointOf i, flush0_10 _, ?_⟩
  have hi := (idx_facts (pointOf i)).2.2.2.2.2.2.2.2.2.2.1
  have h0 : (i 0).val < 16384 := (i 0).isLt
  have h1 : (i 1).val < 512 := (i 1).isLt
  have hp : (pointOf i).val = (i 0).val / 512 := rfl
  rw [mem_blk10]
  intro a
  match a with
  | ⟨0, _⟩ => show win0_10.index (pointOf i) (0 : Fin 2) * 512 ≤ (i 0).val ∧ (i 0).val < win0_10.index (pointOf i) (0 : Fin 2) * 512 + 512; rw [hi.1, hp]; omega
  | ⟨1, _⟩ => show win0_10.index (pointOf i) (1 : Fin 2) * 512 ≤ (i 1).val ∧ (i 1).val < win0_10.index (pointOf i) (1 : Fin 2) * 512 + 512; rw [hi.2]; omega

/-- After the run the two result arrays hold the new cell state and the new hidden state. -/
theorem final_cell (c : Dev nD) : (dats m 0 c).arrAt 11 cfg0.N = cellArr (args m c) :=
  (dats m 0 c).arrAt_eq_of_cover 11 (cellArr (args m c)) (fun t _ => flushed_cell m c t) cover11
theorem final_hidden (c : Dev nD) : (dats m 0 c).arrAt 10 cfg0.N = hiddenArr (args m c) :=
  (dats m 0 c).arrAt_eq_of_cover 10 (hiddenArr (args m c)) (fun t _ => flushed_hidden m c t) cover10

/-- The kernel's run, read: every weakly fair execution ends with the two results at the cell's functions of the arguments,
    the arguments unchanged. -/
theorem run : θ_run defs (onTc (τ := τ) (main (F := Ideal))) ⟨m, fun _ => 0, ρ⟩ fun r => ∀ c : Dev nD,
      r.2.mem ((c : Thread nD τ).loc main_v5_0) = hiddenArr (args m c)
      ∧ r.2.mem ((c : Thread nD τ).loc main_v5_1) = cellArr (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final_hidden m c), (h c).2.1.trans (final_cell m c), (h c).2.2⟩)
    (run_blocks m ρ)

end Cert.LstmCell.Kernel

end
-- ==== Proof.lean ====
/-
  An LSTM cell with fused gates: the kernel against its plain reference, equal as extended reals.

  Both programs compute, for batch row r and hidden unit j, the pre-activation
      pre r g = Σₖ x[r,k]·Wx[k,g] + Σₖ h[r,k]·Wh[k,g] + Σₖ s[r,k]·Ws[k,g] + Σₖ t[r,k]·Wt[k,g] + b[g]
  over the 2048 gate columns, then with σ the logistic function
      c' r j = σ(pre r (512 + j)) · c[r,j] + σ(pre r j) · tanh(pre r (1536 + j)),
      h' r j = tanh(σ(pre r (1024 + j)) · c' r j)                                    (CellSpec.lean).
  The kernel works on 32 blocks of 512 batch rows; on a block it forms the four products into zero accumulators from
  operands narrowed to a shorter float format, which on the extended reals changes nothing, adds them left to right and
  adds the bias row last (KernelPre.lean); its 32 output blocks tile the two result arrays (CellRun.lean). The reference
  forms whole-array products, adds the bias to the second product before summing, and spells the logistic function as
  1 / (1 + exp(−z)), which is that function's definition on the extended reals (RefCell.lean). The two pre-activations
  differ only in the order and grouping of one sum of five extended reals, so they are equal with no finiteness
  assumption, and the precondition is never opened.

  The three frames: the two kernel programs' are the generated frame certificates; the reference's is its generated run
  with the results dropped. The idealization rewrote nothing, so there is nothing to preserve.
-/
import proofs.«116281_j31585189495421_1_alg».proof.Defs
import proofs.«116281_j31585189495421_1_alg».proof.Proof.Gen.Kernel
import proofs.«116281_j31585189495421_1_alg».proof.Proof.Gen.Kernel.Skeleton
import proofs.«116281_j31585189495421_1_alg».proof.Proof.Gen.Kernel.Launch
import proofs.«116281_j31585189495421_1_alg».proof.Proof.Gen.Kernel.Points
import proofs.«116281_j31585189495421_1_alg».proof.Proof.Gen.Kernel.Frame
import proofs.«116281_j31585189495421_1_alg».proof.Proof.Gen.KernelIdeal
import proofs.«116281_j31585189495421_1_alg».proof.Proof.Gen.KernelIdeal.Skeleton
import proofs.«116281_j31585189495421_1_alg».proof.Proof.Gen.KernelIdeal.Launch
import proofs.«116281_j31585189495421_1_alg».proof.Proof.Gen.KernelIdeal.Points
import proofs.«116281_j31585189495421_1_alg».proof.Proof.Gen.KernelIdeal.Frame
import proofs.«116281_j31585189495421_1_alg».proof.Proof.Gen.ReferenceIdeal
import proofs.«116281_j31585189495421_1_alg».proof.Proof.Gen.Pre_finite_inputs
import proofs.«116281_j31585189495421_1_alg».proof.Proof.Gen.KernelIdeal.Value
import proofs.«116281_j31585189495421_1_alg».proof.Proof.Gen.ReferenceIdeal.Run
import proofs.«116281_j31585189495421_1_alg».proof.Proof.Gen.ReferenceIdeal.Read
import proofs.«116281_j31585189495421_1_alg».proof.Proof.CellSpec
import proofs.«116281_j31585189495421_1_alg».proof.Proof.RefCell
import proofs.«116281_j31585189495421_1_alg».proof.Proof.KernelPre
import proofs.«116281_j31585189495421_1_alg».proof.Proof.CellRun
import Idealize.ShloMosaic.Adequacy
import Idealize.ShloMosaic.Init

noncomputable section

namespace Cert.Proof

open Idealize.ShloMosaic Idealize.ShloMosaic.TcCoe Idealize.SL.Sem Cert.LstmCell

/-- From memories that agree on the ten arguments, the kernel ends with its two result arrays at the new hidden and cell
    states of its arguments (the kernel's run, read) and the reference with its two results at the same functions of its
    own arguments (its generated run, read stage by stage): equal element by element. -/
theorem algebraic : Cert.algebraic_KernelIdeal_ReferenceIdeal := by
  intro m ρ m' ρ' _ hagree
  refine ⟨fun c => hiddenArr (Kernel.args m c), fun c => cellArr (Kernel.args m c), Cert.LstmCell.Kernel.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9⟩ := hagree c
    rw [Cert.ReferenceIdeal.Read.val_main_v37_eq, e0, e1, e2, e3, e4, e5, e6, e7, e8, e9]
    exact Cert.LstmCell.Ref.hidden_eq (Kernel.args m c)
  · obtain ⟨e0, e1, e2, e3, e4, e5, e6, e7, e8, e9⟩ := hagree c
    refine (Cert.ReferenceIdeal.Read.val_main_v35_eq _ _ _ _ _ _ _ _ _ _).trans ?_
    rw [e0, e1, e2, e3, e4, e5, e6, e7, e8, e9]
    exact Cert.LstmCell.Ref.cell_eq (Kernel.args m c)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2) (Cert.ReferenceIdeal.Value.run (F := Ideal) m ρ),
  trivial,
  algebraic⟩

end Cert.Proof

end
